-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LayerSpec.lean ====
/-
  What each dense stage of the two-layer graph convolution computes, as whole-array functions over the extended reals,
  written with the reference program's own operations so that the reference's stages are these functions by unfolding:

  * `proj128 x w`, `proj64 a w` — every node's feature row times a weight matrix: entry (r, q) is the sum over k of
    x(r, k) · w(k, q), with 128 resp. 64 terms;
  * `addRow a b` — a bias row b (kept as a 1 × 64 array) added to every row of a;
  * `addRowRelu a b` — the same followed by the maximum with zero.

  Each comes with its value at an entry (r, q). Nothing here needs a finite input: the sums and the maximum are the
  extended reals' own.
-/
import proofs.«134830_j51513837748917_1_alg».proof.ReferenceIdeal
import proofs.«134830_j51513837748917_1_alg».proof.Proof.Gen.ReferenceIdeal
import Idealize.ShloMosaic.Lib.ValueIdx
import Idealize.ShloMosaic.Lib.Pipeline.Value
import Idealize.ShloMosaic.PureOps.Ideal.Laws

noncomputable section

namespace Cert.Layers

open Idealize.ShloMosaic Idealize.ShloMosaic.ValueIdx Cert.ReferenceIdeal Cert.ReferenceIdeal.Gen

/-- Rows of a 100000 × 128 array times a 128 × 64 matrix. -/
def proj128 (x : FVec Ideal S100000x128 .f32) (w : FVec Ideal S128x64 .f32) : FVec Ideal S100000x64 .f32 :=
  Host.dotGeneral dot_S100000x128_S128x64_S100000x64_1_0_0_1_n_n none x w

/-- Rows of a 100000 × 64 array times a 64 × 64 matrix. -/
def proj64 (a : FVec Ideal S100000x64 .f32) (w : FVec Ideal S64x64 .f32) : FVec Ideal S100000x64 .f32 :=
  Host.dotGeneral dot_S100000x64_S64x64_S100000x64_1_0_0_1_n_n none a w

/-- A 1 × 64 row added to every row of a 100000 × 64 array. -/
def addRow (a : FVec Ideal S100000x64 .f32) (b : FVec Ideal S1x64 .f32) : FVec Ideal S100000x64 .f32 :=
  addf a (broadcastInDim S100000x64 ![0, 1] bcast_S1x64_S100000x64_0_1 b)

/-- The same, then the maximum with zero, entry by entry. -/
def addRowRelu (a : FVec Ideal S100000x64 .f32) (b : FVec Ideal S1x64 .f32) : FVec Ideal S100000x64 .f32 :=
  maximumf (addRow a b) (broadcastInDim S100000x64 ![] bcast_S_S100000x64 (constant S_ .f32 0x00000000#32))

/-! ## The operand indices of the two products: row r, column q, summation index k -/

theorem lhs128_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs128_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs128_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs128_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

theorem lhs64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs64_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs64_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-! ## The four stages at an entry -/

/-- Entry (r, q) of the first product: the sum over the 128 input features. -/
theorem proj128_apply (x : FVec Ideal S100000x128 .f32) (w : FVec Ideal S128x64 .f32) (r : Fin 100000) (q : Fin 64) :
    proj128 x w (ix2 r q) = ∑ k : Fin 128, x (ix2 r k) * w (ix2 k q) := by
  unfold proj128
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r q) ((contrEquiv1 dot_S100000x128_S128x64_S100000x64_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x64_S100000x64_1_0_0_1_n_n.rhsIdx (ix2 r q) ((contrEquiv1 dot_S100000x128_S128x64_S100000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- Entry (r, q) of the second product: the sum over the 64 hidden features. -/
theorem proj64_apply (a : FVec Ideal S100000x64 .f32) (w : FVec Ideal S64x64 .f32) (r : Fin 100000) (q : Fin 64) :
    proj64 a w (ix2 r q) = ∑ k : Fin 64, a (ix2 r k) * w (ix2 k q) := by
  unfold proj64
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S100000x64_S64x64_S100000x64_1_0_0_1_n_n.rhsIdx (ix2 r q) ((contrEquiv1 dot_S100000x64_S64x64_S100000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- Entry (r, q) of a row added to every row: a(r, q) + b(0, q). -/
theorem addRow_apply (a : FVec Ideal S100000x64 .f32) (b : FVec Ideal S1x64 .f32) (r : Fin 100000) (q : Fin 64) :
    addRow a b (ix2 r q) = a (ix2 r q) + b (ix2 0 q) := by
  unfold addRow
  rw [addf_apply]
  refine congrArg (a (ix2 r q) + ·) ?_
  exact broadcastInDim_apply _ bcast_S1x64_S100000x64_0_1 b (ix2 r q) (ix2 0 q) (fun a => match a with
    | ⟨0, _⟩ => by show 0 = if (1 : Nat) = 1 then 0 else r.val; rw [if_pos rfl]
    | ⟨1, _⟩ => by show q.val = if (64 : Nat) = 1 then 0 else q.val; rw [if_neg (by decide)])

/-- Entry (r, q) of the rectified stage: the larger of a(r, q) + b(0, q) and zero. -/
theorem addRowRelu_apply (a : FVec Ideal S100000x64 .f32) (b : FVec Ideal S1x64 .f32) (r : Fin 100000) (q : Fin 64) :
    addRowRelu a b (ix2 r q) = max (a (ix2 r q) + b (ix2 0 q)) 0 := by
  unfold addRowRelu
  rw [maximumf_apply, addRow_apply]
  refine congrArg (max (a (ix2 r q) + b (ix2 0 q)) ·) ?_
  show Ideal.ofBits .f32 0x00000000#32 = 0
  exact Ideal.ofBits_zero_f32

end Cert.Layers

end
-- ==== Proof.Edges.lean ====
/-
  The edge arithmetic, up to the entry of the first dense region.

  From the 2 × 1600000 edge list the program forms the source and the destination of every edge with the 100000 self
  loops appended (two concatenations with 0 … 99999), the degree of every node (a scatter-add of ones at the
  destinations), the factor 1 / sqrt(degree) where the degree is positive and 0 elsewhere, and for every edge the
  product of the factors at its two end points, the negative indices wrapped by adding 100000 first. The reference
  computes the same three arrays by the same operations in the same order. So when the first region is entered the
  three buffers hold the reference's stages of the same names, and the six argument arrays are as launched. The
  arithmetic is matched operation by operation and never evaluated, and everything here holds for any float family: it is stated so, since the comparison of the two
  spellings is then between terms that nothing can unfold.
-/
import proofs.«134830_j51513837748917_1_alg».proof.Proof.Gen.KernelIdeal.Frame
import proofs.«134830_j51513837748917_1_alg».proof.Proof.RefRead
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Edges

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

/-- A buffer that no operation of a host stretch writes holds after the stretch what it held before it. -/
local macro "stretch_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## After the first stretch: sources, destinations, the degree test and the inverse square root -/

/-- The launch contents of the edge list. -/
theorem launch_edges (c : Dev nD) : W0 m ρ c (Proc.devRef .tc main_arg1) = (m ((c.tc : Thread nD τ).loc main_arg1)) := rfl

set_option maxHeartbeats 4000000 in
/-- Sources with the self loops appended. -/
theorem src1 (c : Dev nD) : W1 m ρ c (Proc.devRef .tc main_v3) = Cert.ReferenceIdeal.ReadP.val_main_v3 (F := F) (m ((c.tc : Thread nD τ).loc main_arg1)) := by
  dsimp only [W1, hostOps0]
  after_results
  rfl

set_option maxHeartbeats 4000000 in
/-- Destinations with the self loops appended. -/
theorem dst1 (c : Dev nD) : W1 m ρ c (Proc.devRef .tc main_v6) = Cert.ReferenceIdeal.ReadP.val_main_v6 (F := F) (m ((c.tc : Thread nD τ).loc main_arg1)) := by
  dsimp only [W1, hostOps0]
  after_results
  rfl

set_option maxHeartbeats 8000000 in
/-- Where the degree is positive. -/
theorem pos1 (c : Dev nD) : W1 m ρ c (Proc.devRef .tc main_v12) = Cert.ReferenceIdeal.ReadP.val_main_v12 (F := F) (m ((c.tc : Thread nD τ).loc main_arg1)) := by
  dsimp only [W1, hostOps0]
  after_results
  rfl

set_option maxHeartbeats 8000000 in
/-- The inverse square root of the degree. -/
theorem rsq1 (c : Dev nD) : W1 m ρ c (Proc.devRef .tc main_v13) = Cert.ReferenceIdeal.ReadP.val_main_v13 (F := F) (m ((c.tc : Thread nD τ).loc main_arg1)) := by
  dsimp only [W1, hostOps0]
  after_results
  rfl

set_option maxHeartbeats 4000000 in
/-- The zero the selection falls back to. -/
theorem zero1 (c : Dev nD) : W1 m ρ c (Proc.devRef .tc main_cst_2) = Cert.ReferenceIdeal.ReadP.val_main_cst_2 (F := F) := by
  dsimp only [W1, hostOps0]
  after_results
  rfl

/-! ## After the selection: every node's normalisation factor -/

theorem src2 (c : Dev nD) : W2 m ρ c (Proc.devRef .tc main_v3) = Cert.ReferenceIdeal.ReadP.val_main_v3 (F := F) (m ((c.tc : Thread nD τ).loc main_arg1)) :=
  (by stretch_keeps hostOps0_1 : W2 m ρ c (Proc.devRef .tc main_v3) = W1 m ρ c (Proc.devRef .tc main_v3)).trans (src1 m ρ c)

theorem dst2 (c : Dev nD) : W2 m ρ c (Proc.devRef .tc main_v6) = Cert.ReferenceIdeal.ReadP.val_main_v6 (F := F) (m ((c.tc : Thread nD τ).loc main_arg1)) :=
  (by stretch_keeps hostOps0_1 : W2 m ρ c (Proc.devRef .tc main_v6) = W1 m ρ c (Proc.devRef .tc main_v6)).trans (dst1 m ρ c)

set_option maxHeartbeats 4000000 in
/-- 1 / sqrt(degree) where the degree is positive, 0 elsewhere. -/
theorem fac2 (c : Dev nD) : W2 m ρ c (Proc.devRef .tc main_v14) = Cert.ReferenceIdeal.ReadP.val_main_v14 (F := F) (m ((c.tc : Thread nD τ).loc main_arg1)) := by
  have h12 := pos1 m ρ c
  have h13 := rsq1 m ρ c
  have hz := zero1 m ρ c
  dsimp only [W2, hostOps0_1]
  generalize W1 m ρ c = W at h12 h13 hz ⊢
  after_results
  rw [h12, h13, hz]
  rfl

/-! ## At the first region's entry: the factor of every edge -/

theorem src3 (c : Dev nD) : W3 m ρ c (Proc.devRef .tc main_v3) = Cert.ReferenceIdeal.ReadP.val_main_v3 (F := F) (m ((c.tc : Thread nD τ).loc main_arg1)) :=
  (by stretch_keeps hostOps0_2 : W3 m ρ c (Proc.devRef .tc main_v3) = W2 m ρ c (Proc.devRef .tc main_v3)).trans (src2 m ρ c)

theorem dst3 (c : Dev nD) : W3 m ρ c (Proc.devRef .tc main_v6) = Cert.ReferenceIdeal.ReadP.val_main_v6 (F := F) (m ((c.tc : Thread nD τ).loc main_arg1)) :=
  (by stretch_keeps hostOps0_2 : W3 m ρ c (Proc.devRef .tc main_v6) = W2 m ρ c (Proc.devRef .tc main_v6)).trans (dst2 m ρ c)

set_option maxHeartbeats 4000000 in
/-- The product of the factors at an edge's two end points. -/
theorem nrm3 (c : Dev nD) : W3 m ρ c (Proc.devRef .tc main_v29) = Cert.ReferenceIdeal.ReadP.val_main_v29 (F := F) (m ((c.tc : Thread nD τ).loc main_arg1)) := by
  have hf := fac2 m ρ c
  have hs := src2 m ρ c
  have hd := dst2 m ρ c
  dsimp only [W3, hostOps0_2]
  generalize W2 m ρ c = W at hf hs hd ⊢
  after_results_simp
  rw [hf, hs, hd]
  rfl

/-! ## The argument arrays are as launched when the first region is entered -/

theorem arg0_3 (c : Dev nD) : W3 m ρ c (Proc.devRef .tc main_arg0) = (m ((c.tc : Thread nD τ).loc main_arg0)) :=
  (by stretch_keeps hostOps0_2 : W3 m ρ c (Proc.devRef .tc main_arg0) = W2 m ρ c (Proc.devRef .tc main_arg0)).trans ((by stretch_keeps hostOps0_1 : W2 m ρ c (Proc.devRef .tc main_arg0) = W1 m ρ c (Proc.devRef .tc main_arg0)).trans ((by stretch_keeps hostOps0 : W1 m ρ c (Proc.devRef .tc main_arg0) = W0 m ρ c (Proc.devRef .tc main_arg0)).trans rfl))

theorem arg2_3 (c : Dev nD) : W3 m ρ c (Proc.devRef .tc main_arg2) = (m ((c.tc : Thread nD τ).loc main_arg2)) :=
  (by stretch_keeps hostOps0_2 : W3 m ρ c (Proc.devRef .tc main_arg2) = W2 m ρ c (Proc.devRef .tc main_arg2)).trans ((by stretch_keeps hostOps0_1 : W2 m ρ c (Proc.devRef .tc main_arg2) = W1 m ρ c (Proc.devRef .tc main_arg2)).trans ((by stretch_keeps hostOps0 : W1 m ρ c (Proc.devRef .tc main_arg2) = W0 m ρ c (Proc.devRef .tc main_arg2)).trans rfl))

theorem arg3_3 (c : Dev nD) : W3 m ρ c (Proc.devRef .tc main_arg3) = (m ((c.tc : Thread nD τ).loc main_arg3)) :=
  (by stretch_keeps hostOps0_2 : W3 m ρ c (Proc.devRef .tc main_arg3) = W2 m ρ c (Proc.devRef .tc main_arg3)).trans ((by stretch_keeps hostOps0_1 : W2 m ρ c (Proc.devRef .tc main_arg3) = W1 m ρ c (Proc.devRef .tc main_arg3)).trans ((by stretch_keeps hostOps0 : W1 m ρ c (Proc.devRef .tc main_arg3) = W0 m ρ c (Proc.devRef .tc main_arg3)).trans rfl))

theorem arg4_3 (c : Dev nD) : W3 m ρ c (Proc.devRef .tc main_arg4) = (m ((c.tc : Thread nD τ).loc main_arg4)) :=
  (by stretch_keeps hostOps0_2 : W3 m ρ c (Proc.devRef .tc main_arg4) = W2 m ρ c (Proc.devRef .tc main_arg4)).trans ((by stretch_keeps hostOps0_1 : W2 m ρ c (Proc.devRef .tc main_arg4) = W1 m ρ c (Proc.devRef .tc main_arg4)).trans ((by stretch_keeps hostOps0 : W1 m ρ c (Proc.devRef .tc main_arg4) = W0 m ρ c (Proc.devRef .tc main_arg4)).trans rfl))

theorem arg5_3 (c : Dev nD) : W3 m ρ c (Proc.devRef .tc main_arg5) = (m ((c.tc : Thread nD τ).loc main_arg5)) :=
  (by stretch_keeps hostOps0_2 : W3 m ρ c (Proc.devRef .tc main_arg5) = W2 m ρ c (Proc.devRef .tc main_arg5)).trans ((by stretch_keeps hostOps0_1 : W2 m ρ c (Proc.devRef .tc main_arg5) = W1 m ρ c (Proc.devRef .tc main_arg5)).trans ((by stretch_keeps hostOps0 : W1 m ρ c (Proc.devRef .tc main_arg5) = W0 m ρ c (Proc.devRef .tc main_arg5)).trans rfl))

end Cert.KernelIdeal.Edges

end
-- ==== Proof.Region0.lean ====
/-
  The first dense stage. The grid has 25 points; point t multiplies rows 4000·t … 4000·t + 3999 of the node features
  by the whole 128 × 64 weight matrix and writes the 4000 × 64 block back to the same rows of the output. The blocks
  tile the 100000 rows, so after the last write-back the output array is the whole product.
-/
import proofs.«134830_j51513837748917_1_alg».proof.Proof.Gen.KernelIdeal.Frame
import proofs.«134830_j51513837748917_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The operand indices of a block's product: row p of the block, column q, summation index k -/

theorem lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-! ## What one point computes -/

/-- Entry (p, q) of the block a point stores: the sum over the 128 input features of the products of row p of the
    loaded rows and column q of the weight matrix. The accumulator starts at zero and the narrowing of both operands
    is the identity over the extended reals. -/
theorem block_apply (x0 : Vec Ideal S4000x128 .f32) (x1 : Vec Ideal S128x64 .f32) (p : Fin 4000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs_0 _ _).trans hk
    | ⟨1, _⟩ => exact rhs_1 _ _)
  rw [el, er, truncf_apply, truncf_apply]

/- the contents of the core's buffers when the region is entered -/
variable (V : (c : Dev nD) → (b : Ref sig .tc) → Buf (Elt Ideal) ((c : Thread nD τ).loc b))

/-! ## Where the blocks sit -/

/-- Every access of the body starts at the corner of its buffer. -/
theorem corner : (![0, 0] : Fin 2 → Nat) = fun _ => 0 := funext fun a => by fin_cases a <;> rfl

/-- The block indices, decided over the 25 points: point t takes row block t of the features and of the output, and
    the one block of the weight matrix; no window moves along the columns. -/
theorem block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-! ## What a point writes back -/

/-- Point t writes back block t of the whole product: entry (p, q) of what the body stored is the sum over k of
    feature (4000·t + p, k) times weight (k, q), which is entry (4000·t + p, q) of the product. -/
theorem flushed_eq (c : Dev nD) (t : Fin cfg0.N) :
    (dat0 (F := Ideal) V c).flushed 2 t
      = ((cfg0.win 2).blk t).view.read (Elt Ideal) (Cert.Layers.proj128 (V c main_arg0) (V c main_arg2)) := by
  show (cfg0.win 2).cut (grid0.coords t) ((dat0 (F := Ideal) V c).after 2 t) = _
  rw [after0_2]
  unfold out0_2
  rw [View.canon_unit_zero corner]
  simp only [View.ld_unit_zero (S := S4000x128) corner, View.ld_unit_zero (S := S128x64) corner]
  obtain ⟨e0, e1, e2, e3, e4, e5⟩ := block_index t
  funext j
  obtain ⟨p, q, rfl⟩ : ∃ (p : Fin 4000) (q : Fin 64), j = ix2 p q := ⟨j 0, j 1, eq_ix2 j⟩
  have hp : p.val < 4000 := p.isLt
  have ht : t.val < 25 := t.isLt
  -- entry (p, q) of block t of the output is entry (4000·t + p, q) of the array
  have hrow : ((cfg0.win 2).blk t).view.emb (ix2 p q) = ix2 (⟨4000 * t.val + p.val, by omega⟩ : Fin 100000) q := by
    funext a; apply Fin.ext
    match a with
    | ⟨0, _⟩ => show win0_2.index t (0 : Fin 2) * 4000 + 1 * p.val = 4000 * t.val + p.val; omega
    | ⟨1, _⟩ => show win0_2.index t (1 : Fin 2) * 64 + 1 * q.val = q.val; omega
  show k0_pay1 (F := Ideal) (iblk0 V c 0 t) (iblk0 V c 1 t) (ix2 p q)
      = Cert.Layers.proj128 (V c main_arg0) (V c main_arg2) (((cfg0.win 2).blk t).view.emb (ix2 p q))
  rw [hrow, Cert.Layers.proj128_apply]
  refine (block_apply (iblk0 V c 0 t) (iblk0 V c 1 t) p q).trans ?_
  refine Finset.sum_congr rfl fun k _ => ?_
  -- entry (p, k) of the loaded rows is feature (4000·t + p, k)
  have h0 : iblk0 V c 0 t (ix2 p k) = V c main_arg0 (ix2 (⟨4000 * t.val + p.val, by omega⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = 4000 * t.val + p.val; omega
    | ⟨1, _⟩ => show win0_0.index t (1 : Fin 2) * 128 + 1 * k.val = k.val; omega
  -- the loaded weight block is the whole matrix
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  rw [h0, h1]

/-! ## The blocks tile the rows -/

/-- An index of the output array is in point t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Row r of the output is in point t's block as soon as 4000·t ≤ r < 4000·t + 4000: the block spans all 64 columns. -/
theorem mem_blk_of_row (t : Fin cfg0.N) (i : S100000x64.Idx) (hlo : 4000 * t.val ≤ (i 0).val) (hhi : (i 0).val < 4000 * t.val + 4000) :
    i ∈ ((cfg0.win 2).blk t).view.set := by
  obtain ⟨e0, e1, e2, e3, e4, e5⟩ := block_index t
  have hi1 : (i 1).val < 64 := idx2_lt1 i
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- Every entry of the output is written back by some point: row r by point r / 4000, which is below 25 because
    r < 100000 = 25 · 4000. -/
theorem cover (i : S100000x64.Idx) : ∃ t : Fin cfg0.N, (cfg0.win 2).flush t = true ∧ i ∈ ((cfg0.win 2).blk t).view.set := by
  have hi0 : (i 0).val < 100000 := idx2_lt0 i
  have hq : (i 0).val / 4000 < 25 := by omega
  refine ⟨⟨(i 0).val / 4000, hq⟩, flush0_2 _, mem_blk_of_row ⟨(i 0).val / 4000, hq⟩ i ?_ ?_⟩
  · show 4000 * ((i 0).val / 4000) ≤ (i 0).val; omega
  · show (i 0).val < 4000 * ((i 0).val / 4000) + 4000; omega

/-- After the 25 row blocks are written back the output array is the product of the two arrays the region was entered with. -/
theorem array_after (c : Dev nD) :
    (dat0 (F := Ideal) V c).arrAt 2 cfg0.N = Cert.Layers.proj128 (V c main_arg0) (V c main_arg2) := by
  exact (dat0 (F := Ideal) V c).arrAt_eq_of_cover 2 _ (fun t _ => flushed_eq V c t) cover

end Cert.KernelIdeal.Region0

end
-- ==== Proof.Region1.lean ====
/-
  The first bias stage. Point t of the 25 adds the 1 × 64 bias row to rows 4000·t … 4000·t + 3999 of the aggregated
  features and takes the maximum with zero; the blocks tile the 100000 rows, so the output array is the whole
  rectified sum.
-/
import proofs.«134830_j51513837748917_1_alg».proof.Proof.Gen.KernelIdeal.Frame
import proofs.«134830_j51513837748917_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/- the contents of the core's buffers when the region is entered -/
variable (V : (c : Dev nD) → (b : Ref sig .tc) → Buf (Elt Ideal) ((c : Thread nD τ).loc b))

/-- The zero offset of a whole-block rectangle, as a constant function. -/
theorem off_zero : (![0, 0] : Fin 2 → Nat) = fun _ => 0 := funext fun a => by fin_cases a <;> rfl

/-- Entry (p, q) of what the body stores: the block's entry plus the bias row's entry in column q, then the maximum
    with zero. Both reshapes are to the shape the vector already has, and the row is broadcast along the 4000 rows. -/
theorem pay_apply (x0 : Vec Ideal S4000x64 .f32) (x1 : Vec Ideal S1x64 .f32) (p : Fin 4000) (q : Fin 64) :
    k1_pay1 x0 x1 (ix2 p q) = max (x0 (ix2 p q) + x1 (ix2 0 q)) 0 := by
  show maximumf (addf (shapeCast S4000x64 x0 shapeCasts_S4000x64_S4000x64)
      (broadcastTo S4000x64 (shapeCast S1x64 x1 shapeCasts_S1x64_S1x64) broadcasts_S1x64_S4000x64))
      (broadcast S4000x64 (Scalar.ofBits (F := Ideal) .f32 0x00000000#32)) (ix2 p q) = _
  rw [maximumf_apply, addf_apply, shapeCast_self, shapeCast_self, broadcast_apply]
  rw [broadcastTo_apply x1 broadcasts_S1x64_S4000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])]
  refine congrArg (max (x0 (ix2 p q) + x1 (ix2 0 q)) ·) ?_
  show Ideal.ofBits .f32 0x00000000#32 = 0
  exact Ideal.ofBits_zero_f32

/-- The block indices of the three windows at point t: the two 4000-row windows sit at block row t, column block 0;
    the bias row's window is always its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified sum: entry (p, q) of the stored block is entry
    (4000·t + p, q) of the array plus entry (0, q) of the bias row, the maximum with zero taken. -/
theorem flushed_eq (c : Dev nD) (t : Fin cfg1.N) :
    (dat1 (F := Ideal) V c).flushed 2 t
      = ((cfg1.win 2).blk t).view.read (Elt Ideal) (Cert.Layers.addRowRelu (V c main_v43) (V c main_v44)) := by
  show (cfg1.win 2).cut (grid1.coords t) ((dat1 V c).after 2 t) = _
  rw [after1_2]
  unfold out1_2
  rw [View.canon_unit_zero off_zero]
  simp only [View.ld_unit_zero (S := S4000x64) off_zero, View.ld_unit_zero (S := S1x64) off_zero]
  obtain ⟨e0, e1, e2, e3, e4, e5⟩ := idx_facts t
  have ht : t.val < 25 := t.isLt
  funext j
  obtain ⟨p, q, rfl⟩ : ∃ (p : Fin 4000) (q : Fin 64), j = ix2 p q := ⟨j 0, j 1, eq_ix2 j⟩
  refine (pay_apply (iblk1 V c 0 t) (iblk1 V c 1 t) p q).trans ?_
  have hrow : 4000 * t.val + p.val < 100000 := by have := p.isLt; omega
  have hout : ((cfg1.win 2).blk t).view.emb (ix2 p q) = ix2 (⟨4000 * t.val + p.val, hrow⟩ : Fin 100000) q := by
    funext a; apply Fin.ext
    match a with
    | ⟨0, _⟩ => show win1_2.index t (0 : Fin 2) * 4000 + 1 * p.val = 4000 * t.val + p.val; omega
    | ⟨1, _⟩ => show win1_2.index t (1 : Fin 2) * 64 + 1 * q.val = q.val; omega
  show _ = Cert.Layers.addRowRelu (V c main_v43) (V c main_v44) (((cfg1.win 2).blk t).view.emb (ix2 p q))
  rw [hout, Cert.Layers.addRowRelu_apply]
  have h0 : iblk1 V c 0 t (ix2 p q) = V c main_v43 (ix2 (⟨4000 * t.val + p.val, hrow⟩ : Fin 100000) q) := by
    show V c main_v43 (((cfg1.win 0).blk t).view.emb (ix2 p q)) = _
    refine congrArg (V c main_v43) (funext fun a => Fin.ext ?_)
    match a with
    | ⟨0, _⟩ => show win1_0.index t (0 : Fin 2) * 4000 + 1 * p.val = 4000 * t.val + p.val; omega
    | ⟨1, _⟩ => show win1_0.index t (1 : Fin 2) * 64 + 1 * q.val = q.val; omega
  have h1 : iblk1 V c 1 t (ix2 0 q) = V c main_v44 (ix2 0 q) := by
    show V c main_v44 (((cfg1.win 1).blk t).view.emb (ix2 0 q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  exact congrArg₂ (fun a b => max (a + b) 0) h0 h1

/-- An index of the array is in point t's block iff each coordinate is in the block's range on its axis. -/
theorem mem_blk (t : Fin cfg1.N) (i : S100000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v45).slice (win1_2.rect t)).set ↔ _
  rw [View.set_slice_whole, Rect.mem_set_unit]
  exact Iff.rfl

/-- The 25 blocks tile the 100000 rows: row r lies in the block of the point r / 4000, and every column in its one
    column block. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 4000 := ⟨(⟨(i 0).val / 4000, by omega⟩ : Fin 25), rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 64 ≤ (i 1).val ∧ (i 1).val < win1_2.index t (1 : Fin 2) * 64 + 64
    omega

/-- After the 25 row blocks are written back the output array is the bias row added to every row, rectified. -/
theorem array_after (c : Dev nD) :
    (dat1 (F := Ideal) V c).arrAt 2 cfg1.N = Cert.Layers.addRowRelu (V c main_v43) (V c main_v44) :=
  (dat1 (F := Ideal) V c).arrAt_eq_of_cover 2 _ (fun t _ => flushed_eq V c t) cover

end Cert.KernelIdeal.Region1

end
-- ==== Proof.Region2.lean ====
/-
  The second dense stage: as the first, with 64 hidden features in place of the 128 input features. Point t multiplies
  rows 4000·t … 4000·t + 3999 of the hidden features by the whole 64 × 64 weight matrix.
-/
import proofs.«134830_j51513837748917_1_alg».proof.Proof.Gen.KernelIdeal.Frame
import proofs.«134830_j51513837748917_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The operand indices of a block's product: row p of the block, column q, summation index k -/

theorem lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-! ## What one point computes -/

/-- Entry (p, q) of the block a point stores: the sum over the 64 hidden features of the products of row p of the
    loaded rows and column q of the weight matrix. The accumulator starts at zero, the reshaping of the loaded rows is
    to their own shape, and the narrowing of both operands is the identity over the extended reals. -/
theorem block_apply (x0 : Vec Ideal S4000x64 .f32) (x1 : Vec Ideal S64x64 .f32) (p : Fin 4000) (q : Fin 64) :
    k2_pay1 (F := Ideal) x0 x1 (ix2 p q) = ∑ k : Fin 64, x0 (ix2 p k) * x1 (ix2 k q) := by
  unfold k2_pay1
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_0 _ _
    | ⟨1, _⟩ => exact (lhs_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_0 _ _).trans hk
    | ⟨1, _⟩ => exact rhs_1 _ _)
  rw [el, er, truncf_apply, truncf_apply, shapeCast_self]

/- the contents of the core's buffers when the region is entered -/
variable (V : (c : Dev nD) → (b : Ref sig .tc) → Buf (Elt Ideal) ((c : Thread nD τ).loc b))

/-! ## Where the blocks sit -/

/-- Every access of the body starts at the corner of its buffer. -/
theorem corner : (![0, 0] : Fin 2 → Nat) = fun _ => 0 := funext fun a => by fin_cases a <;> rfl

/-- The block indices, decided over the 25 points: point t takes row block t of the hidden features and of the
    output, and the one block of the weight matrix; no window moves along the columns. -/
theorem block_index : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-! ## What a point writes back -/

/-- Point t writes back block t of the whole product: entry (p, q) of what the body stored is the sum over k of
    hidden feature (4000·t + p, k) times weight (k, q), which is entry (4000·t + p, q) of the product. -/
theorem flushed_eq (c : Dev nD) (t : Fin cfg2.N) :
    (dat2 (F := Ideal) V c).flushed 2 t
      = ((cfg2.win 2).blk t).view.read (Elt Ideal) (Cert.Layers.proj64 (V c main_v45) (V c main_arg4)) := by
  show (cfg2.win 2).cut (grid2.coords t) ((dat2 (F := Ideal) V c).after 2 t) = _
  rw [after2_2]
  unfold out2_2
  rw [View.canon_unit_zero corner]
  simp only [View.ld_unit_zero (S := S4000x64) corner, View.ld_unit_zero (S := S64x64) corner]
  obtain ⟨e0, e1, e2, e3, e4, e5⟩ := block_index t
  funext j
  obtain ⟨p, q, rfl⟩ : ∃ (p : Fin 4000) (q : Fin 64), j = ix2 p q := ⟨j 0, j 1, eq_ix2 j⟩
  have hp : p.val < 4000 := p.isLt
  have ht : t.val < 25 := t.isLt
  -- entry (p, q) of block t of the output is entry (4000·t + p, q) of the array
  have hrow : ((cfg2.win 2).blk t).view.emb (ix2 p q) = ix2 (⟨4000 * t.val + p.val, by omega⟩ : Fin 100000) q := by
    funext a; apply Fin.ext
    match a with
    | ⟨0, _⟩ => show win2_2.index t (0 : Fin 2) * 4000 + 1 * p.val = 4000 * t.val + p.val; omega
    | ⟨1, _⟩ => show win2_2.index t (1 : Fin 2) * 64 + 1 * q.val = q.val; omega
  show k2_pay1 (F := Ideal) (iblk2 V c 0 t) (iblk2 V c 1 t) (ix2 p q)
      = Cert.Layers.proj64 (V c main_v45) (V c main_arg4) (((cfg2.win 2).blk t).view.emb (ix2 p q))
  rw [hrow, Cert.Layers.proj64_apply]
  refine (block_apply (iblk2 V c 0 t) (iblk2 V c 1 t) p q).trans ?_
  refine Finset.sum_congr rfl fun k _ => ?_
  -- entry (p, k) of the loaded rows is hidden feature (4000·t + p, k)
  have h0 : iblk2 V c 0 t (ix2 p k) = V c main_v45 (ix2 (⟨4000 * t.val + p.val, by omega⟩ : Fin 100000) k) := by
    show V c main_v45 (((cfg2.win 0).blk t).view.emb (ix2 p k)) = _
    refine congrArg (V c main_v45) ?_
    funext a; apply Fin.ext
    match a with
    | ⟨0, _⟩ => show win2_0.index t (0 : Fin 2) * 4000 + 1 * p.val = 4000 * t.val + p.val; omega
    | ⟨1, _⟩ => show win2_0.index t (1 : Fin 2) * 64 + 1 * k.val = k.val; omega
  -- the loaded weight block is the whole matrix
  have h1 : iblk2 V c 1 t (ix2 k q) = V c main_arg4 (ix2 k q) := by
    show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  rw [h0, h1]

/-! ## The blocks tile the rows -/

/-- An index of the output array is in point t's block iff each coordinate is in the block's range on its axis. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v46).slice (win2_2.rect t)).set ↔ _
  rw [View.set_slice_whole, Rect.mem_set_unit]
  exact Iff.rfl

/-- Row r of the output is in point t's block as soon as 4000·t ≤ r < 4000·t + 4000: the block spans all 64 columns. -/
theorem mem_blk_of_row (t : Fin cfg2.N) (i : S100000x64.Idx) (hlo : 4000 * t.val ≤ (i 0).val) (hhi : (i 0).val < 4000 * t.val + 4000) :
    i ∈ ((cfg2.win 2).blk t).view.set := by
  obtain ⟨e0, e1, e2, e3, e4, e5⟩ := block_index t
  have hi1 : (i 1).val < 64 := idx2_lt1 i
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- Every entry of the output is written back by some point: row r by point r / 4000, which is below 25 because
    r < 100000 = 25 · 4000. -/
theorem cover (i : S100000x64.Idx) : ∃ t : Fin cfg2.N, (cfg2.win 2).flush t = true ∧ i ∈ ((cfg2.win 2).blk t).view.set := by
  have hi0 : (i 0).val < 100000 := idx2_lt0 i
  have hq : (i 0).val / 4000 < 25 := by omega
  refine ⟨⟨(i 0).val / 4000, hq⟩, flush2_2 _, mem_blk_of_row ⟨(i 0).val / 4000, hq⟩ i ?_ ?_⟩
  · show 4000 * ((i 0).val / 4000) ≤ (i 0).val; omega
  · show (i 0).val < 4000 * ((i 0).val / 4000) + 4000; omega

/-- After the 25 row blocks are written back the output array is the product of the two arrays the region was entered with. -/
theorem array_after (c : Dev nD) :
    (dat2 (F := Ideal) V c).arrAt 2 cfg2.N = Cert.Layers.proj64 (V c main_v45) (V c main_arg4) := by
  exact (dat2 (F := Ideal) V c).arrAt_eq_of_cover 2 _ (fun t _ => flushed_eq V c t) cover

end Cert.KernelIdeal.Region2

end
-- ==== Proof.Region3.lean ====
/-
  The second bias stage: the 1 × 64 bias row added to every row of the aggregated features, 4000 rows a point, with no
  rectification.
-/
import proofs.«134830_j51513837748917_1_alg».proof.Proof.Gen.KernelIdeal.Frame
import proofs.«134830_j51513837748917_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

/- the contents of the core's buffers when the region is entered -/
variable (V : (c : Dev nD) → (b : Ref sig .tc) → Buf (Elt Ideal) ((c : Thread nD τ).loc b))

/-- The zero offset of a whole-block rectangle, as a constant function. -/
theorem off_zero : (![0, 0] : Fin 2 → Nat) = fun _ => 0 := funext fun a => by fin_cases a <;> rfl

/-- Entry (p, q) of what the body stores: the block's entry plus the bias row's entry in column q. Both reshapes are to
    the shape the vector already has, and the row is broadcast along the 4000 rows. -/
theorem pay_apply (x0 : Vec Ideal S4000x64 .f32) (x1 : Vec Ideal S1x64 .f32) (p : Fin 4000) (q : Fin 64) :
    k3_pay1 x0 x1 (ix2 p q) = x0 (ix2 p q) + x1 (ix2 0 q) := by
  show addf (F := Ideal) (φ := .f32) (shapeCast S4000x64 x0 shapeCasts_S4000x64_S4000x64)
      (broadcastTo S4000x64 (shapeCast S1x64 x1 shapeCasts_S1x64_S1x64) broadcasts_S1x64_S4000x64) (ix2 p q) = _
  rw [addf_apply, shapeCast_self, shapeCast_self]
  rw [broadcastTo_apply x1 broadcasts_S1x64_S4000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])]

/-- The block indices of the three windows at point t: the two 4000-row windows sit at block row t, column block 0;
    the bias row's window is always its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the sum: entry (p, q) of the stored block is entry (4000·t + p, q) of the
    array plus entry (0, q) of the bias row. -/
theorem flushed_eq (c : Dev nD) (t : Fin cfg3.N) :
    (dat3 (F := Ideal) V c).flushed 2 t
      = ((cfg3.win 2).blk t).view.read (Elt Ideal) (Cert.Layers.addRow (V c main_v59) (V c main_v60)) := by
  show (cfg3.win 2).cut (grid3.coords t) ((dat3 V c).after 2 t) = _
  rw [after3_2]
  unfold out3_2
  rw [View.canon_unit_zero off_zero]
  simp only [View.ld_unit_zero (S := S4000x64) off_zero, View.ld_unit_zero (S := S1x64) off_zero]
  obtain ⟨e0, e1, e2, e3, e4, e5⟩ := idx_facts t
  have ht : t.val < 25 := t.isLt
  funext j
  obtain ⟨p, q, rfl⟩ : ∃ (p : Fin 4000) (q : Fin 64), j = ix2 p q := ⟨j 0, j 1, eq_ix2 j⟩
  refine (pay_apply (iblk3 V c 0 t) (iblk3 V c 1 t) p q).trans ?_
  have hrow : 4000 * t.val + p.val < 100000 := by have := p.isLt; omega
  have hout : ((cfg3.win 2).blk t).view.emb (ix2 p q) = ix2 (⟨4000 * t.val + p.val, hrow⟩ : Fin 100000) q := by
    funext a; apply Fin.ext
    match a with
    | ⟨0, _⟩ => show win3_2.index t (0 : Fin 2) * 4000 + 1 * p.val = 4000 * t.val + p.val; omega
    | ⟨1, _⟩ => show win3_2.index t (1 : Fin 2) * 64 + 1 * q.val = q.val; omega
  show _ = Cert.Layers.addRow (V c main_v59) (V c main_v60) (((cfg3.win 2).blk t).view.emb (ix2 p q))
  rw [hout, Cert.Layers.addRow_apply]
  have h0 : iblk3 V c 0 t (ix2 p q) = V c main_v59 (ix2 (⟨4000 * t.val + p.val, hrow⟩ : Fin 100000) q) := by
    show V c main_v59 (((cfg3.win 0).blk t).view.emb (ix2 p q)) = _
    refine congrArg (V c main_v59) (funext fun a => Fin.ext ?_)
    match a with
    | ⟨0, _⟩ => show win3_0.index t (0 : Fin 2) * 4000 + 1 * p.val = 4000 * t.val + p.val; omega
    | ⟨1, _⟩ => show win3_0.index t (1 : Fin 2) * 64 + 1 * q.val = q.val; omega
  have h1 : iblk3 V c 1 t (ix2 0 q) = V c main_v60 (ix2 0 q) := by
    show V c main_v60 (((cfg3.win 1).blk t).view.emb (ix2 0 q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  exact congrArg₂ (fun a b => a + b) h0 h1

/-- An index of the array is in point t's block iff each coordinate is in the block's range on its axis. -/
theorem mem_blk (t : Fin cfg3.N) (i : S100000x64.Idx) :
    i ∈ ((cfg3.win 2).blk t).view.set ↔ ∀ a : Fin 2, win3_2.index t a * S4000x64.size a ≤ (i a).val
      ∧ (i a).val < win3_2.index t a * S4000x64.size a + S4000x64.size a := by
  show i ∈ ((View.whole main_v61).slice (win3_2.rect t)).set ↔ _
  rw [View.set_slice_whole, Rect.mem_set_unit]
  exact Iff.rfl

/-- The 25 blocks tile the 100000 rows: row r lies in the block of the point r / 4000, and every column in its one
    column block. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 4000 := ⟨(⟨(i 0).val / 4000, by omega⟩ : Fin 25), rfl⟩
  obtain ⟨e0, e1, e2, e3, e4, e5⟩ := idx_facts t
  refine ⟨t, flush3_2 t, ?_⟩
  rw [mem_blk]
  intro a
  match a with
  | ⟨0, _⟩ =>
    show win3_2.index t (0 : Fin 2) * 4000 ≤ (i 0).val ∧ (i 0).val < win3_2.index t (0 : Fin 2) * 4000 + 4000
    omega
  | ⟨1, _⟩ =>
    show win3_2.index t (1 : Fin 2) * 64 ≤ (i 1).val ∧ (i 1).val < win3_2.index t (1 : Fin 2) * 64 + 64
    omega

/-- After the 25 row blocks are written back the output array is the bias row added to every row. -/
theorem array_after (c : Dev nD) :
    (dat3 (F := Ideal) V c).arrAt 2 cfg3.N = Cert.Layers.addRow (V c main_v59) (V c main_v60) :=
  (dat3 (F := Ideal) V c).arrAt_eq_of_cover 2 _ (fun t _ => flushed_eq V c t) cover

end Cert.KernelIdeal.Region3

end
-- ==== Proof.Stages.lean ====
/-
  The two layers, boundary by boundary.

  With the edge arithmetic in place (sources, destinations and every edge's factor are the reference's stages when the
  first region is entered, and no later segment writes them), each segment adds one stage:
  the first dense region leaves the product of the node features and the first weight matrix; the host stretch after
  it gathers the product's rows at the sources, scales each by its edge's factor and scatter-adds them at the
  destinations — the reference's own operations on the reference's own stage, so it is the reference's next stage —
  and reshapes the first bias to a 1 × 64 row, which is the row the reference obtains by a broadcast; the bias region
  adds the row to every row and rectifies; the second dense region, the second such stretch and the last bias region
  repeat this without the rectification. The result buffer at the last boundary is therefore the reference's result,
  as a function of the six argument arrays.
-/
import proofs.«134830_j51513837748917_1_alg».proof.Proof.Gen.KernelIdeal.Frame
import proofs.«134830_j51513837748917_1_alg».proof.Proof.RefRead
import proofs.«134830_j51513837748917_1_alg».proof.Proof.LayerSpec
import proofs.«134830_j51513837748917_1_alg».proof.Proof.Edges
import proofs.«134830_j51513837748917_1_alg».proof.Proof.Region0
import proofs.«134830_j51513837748917_1_alg».proof.Proof.Region1
import proofs.«134830_j51513837748917_1_alg».proof.Proof.Region2
import proofs.«134830_j51513837748917_1_alg».proof.Proof.Region3
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Stages

open Idealize.ShloMosaic Idealize.ShloMosaic.TcCoe Idealize.ShloMosaic.ValueIdx Idealize.SL.Sem Idealize.ShloMosaic.StableHlo
open Cert.KernelIdeal Cert.KernelIdeal.Gen

/-- A buffer that no operation of a host stretch writes holds after the stretch what it held before it. -/
local macro "stretch_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

open Cert.KernelIdeal.Edges

/-! ## The host stretches between the regions, over any float family and any contents before the stretch -/

section AnyFamily

variable {F : FTy → Type} [FloatOps F]

/-- A 64-vector reshaped to one row is the vector broadcast along a new leading axis: entry (0, q) of either is
    entry q of the vector. -/
theorem row_of_reshape (x : (⟨Cert.ReferenceIdeal.S64, .f32⟩ : BufTy).Contents (Elt F)) (h : S64.ShapeCasts S1x64) :
    shapeCast S1x64 x h = Cert.ReferenceIdeal.ReadP.val_main_v44 (F := F) x := by
  funext i
  rw [Cert.ReferenceIdeal.ReadP.val_main_v44_apply]
  refine shapeCast_apply x h i (Cert.ReferenceIdeal.ReadP.idx_main_v44 i) ?_
  rw [Shape.rowMajor_val_one, Shape.rowMajor_val_two]
  show (i 1).val = (i 0).val * 64 + (i 1).val
  have h0 : (i 0).val < 1 := (i 0).isLt
  omega

set_option maxHeartbeats 4000000 in
/-- The first aggregation: if before the stretch the product, the sources, the destinations and the edge factors
    are the reference's stages, then after it the aggregated features are the reference's next stage. -/
theorem aggregate1 (W : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F))
    (hp : W (Proc.devRef .tc main_v30) = Cert.ReferenceIdeal.ReadP.val_main_v30 (F := F) x0 x2)
    (hs : W (Proc.devRef .tc main_v3) = Cert.ReferenceIdeal.ReadP.val_main_v3 (F := F) x1)
    (hd : W (Proc.devRef .tc main_v6) = Cert.ReferenceIdeal.ReadP.val_main_v6 (F := F) x1)
    (hn : W (Proc.devRef .tc main_v29) = Cert.ReferenceIdeal.ReadP.val_main_v29 (F := F) x1) :
    StableHlo.after hostOps1 W (Proc.devRef .tc main_v43) = Cert.ReferenceIdeal.ReadP.val_main_v43 (F := F) x0 x1 x2 := by
  dsimp only [hostOps1]
  after_results_simp
  rw [hp, hs, hd, hn]
  rfl

set_option maxHeartbeats 4000000 in
/-- The first bias, reshaped to a row by the stretch, is the reference's broadcast row. -/
theorem biasrow1 (W : Valuation τ sig (Elt F)) (x3 : (⟨Cert.ReferenceIdeal.S64, .f32⟩ : BufTy).Contents (Elt F))
    (h3 : W (Proc.devRef .tc main_arg3) = x3) :
    StableHlo.after hostOps1 W (Proc.devRef .tc main_v44) = Cert.ReferenceIdeal.ReadP.val_main_v44 (F := F) x3 := by
  dsimp only [hostOps1]
  after_results_simp
  rw [h3]
  exact row_of_reshape x3 _

set_option maxHeartbeats 4000000 in
/-- The second aggregation. -/
theorem aggregate2 (W : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F))
    (x3 : (⟨Cert.ReferenceIdeal.S64, .f32⟩ : BufTy).Contents (Elt F)) (x4 : (⟨Cert.ReferenceIdeal.S64x64, .f32⟩ : BufTy).Contents (Elt F))
    (hp : W (Proc.devRef .tc main_v46) = Cert.ReferenceIdeal.ReadP.val_main_v48 (F := F) x0 x1 x2 x3 x4)
    (hs : W (Proc.devRef .tc main_v3) = Cert.ReferenceIdeal.ReadP.val_main_v3 (F := F) x1)
    (hd : W (Proc.devRef .tc main_v6) = Cert.ReferenceIdeal.ReadP.val_main_v6 (F := F) x1)
    (hn : W (Proc.devRef .tc main_v29) = Cert.ReferenceIdeal.ReadP.val_main_v29 (F := F) x1) :
    StableHlo.after hostOps3 W (Proc.devRef .tc main_v59) = Cert.ReferenceIdeal.ReadP.val_main_v61 (F := F) x0 x1 x2 x3 x4 := by
  dsimp only [hostOps3]
  after_results_simp
  rw [hp, hs, hd, hn]
  rfl

set_option maxHeartbeats 4000000 in
/-- The second bias as a row. -/
theorem biasrow2 (W : Valuation τ sig (Elt F)) (x5 : (⟨Cert.ReferenceIdeal.S64, .f32⟩ : BufTy).Contents (Elt F))
    (h5 : W (Proc.devRef .tc main_arg5) = x5) :
    StableHlo.after hostOps3 W (Proc.devRef .tc main_v60) = Cert.ReferenceIdeal.ReadP.val_main_v62 (F := F) x5 := by
  dsimp only [hostOps3]
  after_results_simp
  rw [h5]
  exact row_of_reshape x5 _

end AnyFamily

variable (m : (ℓ : Loc nD τ sig) → Buf (Elt Ideal) ℓ) (ρ : Dev nD → PrngReg)

/-! ## Through the first dense region -/

theorem src4 (c : Dev nD) : W4 m ρ c (Proc.devRef .tc main_v3) = Cert.ReferenceIdeal.ReadP.val_main_v3 (F := Ideal) (m ((c.tc : Thread nD τ).loc main_arg1)) := (W4_of_ne m ρ c main_v3 (by decide)).trans (src3 (F := Ideal) m ρ c)
theorem dst4 (c : Dev nD) : W4 m ρ c (Proc.devRef .tc main_v6) = Cert.ReferenceIdeal.ReadP.val_main_v6 (F := Ideal) (m ((c.tc : Thread nD τ).loc main_arg1)) := (W4_of_ne m ρ c main_v6 (by decide)).trans (dst3 (F := Ideal) m ρ c)
theorem nrm4 (c : Dev nD) : W4 m ρ c (Proc.devRef .tc main_v29) = Cert.ReferenceIdeal.ReadP.val_main_v29 (F := Ideal) (m ((c.tc : Thread nD τ).loc main_arg1)) := (W4_of_ne m ρ c main_v29 (by decide)).trans (nrm3 (F := Ideal) m ρ c)
theorem arg3_4 (c : Dev nD) : W4 m ρ c (Proc.devRef .tc main_arg3) = (m ((c.tc : Thread nD τ).loc main_arg3)) := (W4_of_ne m ρ c main_arg3 (by decide)).trans (arg3_3 (F := Ideal) m ρ c)
theorem arg4_4 (c : Dev nD) : W4 m ρ c (Proc.devRef .tc main_arg4) = (m ((c.tc : Thread nD τ).loc main_arg4)) := (W4_of_ne m ρ c main_arg4 (by decide)).trans (arg4_3 (F := Ideal) m ρ c)
theorem arg5_4 (c : Dev nD) : W4 m ρ c (Proc.devRef .tc main_arg5) = (m ((c.tc : Thread nD τ).loc main_arg5)) := (W4_of_ne m ρ c main_arg5 (by decide)).trans (arg5_3 (F := Ideal) m ρ c)

/-- The first product. -/
theorem prod1 (c : Dev nD) : W4 m ρ c (Proc.devRef .tc main_v30) = Cert.ReferenceIdeal.ReadP.val_main_v30 (F := Ideal) (m ((c.tc : Thread nD τ).loc main_arg0)) (m ((c.tc : Thread nD τ).loc main_arg2)) :=
  (W4_arr m ρ c 2).trans ((Cert.KernelIdeal.Region0.array_after (V3 m ρ) c).trans (by
    show Cert.Layers.proj128 (W3 m ρ c (Proc.devRef .tc main_arg0)) (W3 m ρ c (Proc.devRef .tc main_arg2)) = _
    rw [arg0_3 (F := Ideal) m ρ c, arg2_3 (F := Ideal) m ρ c]
    rfl))

/-! ## The first aggregation and the first bias row -/

/-- Rows gathered at the sources, scaled, scatter-added at the destinations. -/
theorem agg1 (c : Dev nD) : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg2)) :=
  aggregate1 (F := Ideal) (W4 m ρ c) _ _ _ (prod1 m ρ c) (src4 m ρ c) (dst4 m ρ c) (nrm4 m ρ c)

theorem row1 (c : Dev nD) : W5 m ρ c (Proc.devRef .tc main_v44) = Cert.ReferenceIdeal.ReadP.val_main_v44 (F := Ideal) (m ((c.tc : Thread nD τ).loc main_arg3)) :=
  biasrow1 (F := Ideal) (W4 m ρ c) _ (arg3_4 m ρ c)

/-- The first layer's output: bias added, rectified. -/
theorem act1 (c : Dev nD) : W6 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) :=
  (W6_arr m ρ c 2).trans ((Cert.KernelIdeal.Region1.array_after (V5 m ρ) c).trans (by
    show Cert.Layers.addRowRelu (W5 m ρ c (Proc.devRef .tc main_v43)) (W5 m ρ c (Proc.devRef .tc main_v44)) = _
    rw [agg1 m ρ c, row1 m ρ c]
    rfl))

/-! ## What the first layer's segments leave alone -/

theorem src7 (c : Dev nD) : W7 m ρ c (Proc.devRef .tc main_v3) = Cert.ReferenceIdeal.ReadP.val_main_v3 (F := Ideal) (m ((c.tc : Thread nD τ).loc main_arg1)) :=
  (W7_of_ne m ρ c main_v3 (by decide)).trans ((W6_of_ne m ρ c main_v3 (by decide)).trans ((by stretch_keeps hostOps1 : W5 m ρ c (Proc.devRef .tc main_v3) = W4 m ρ c (Proc.devRef .tc main_v3)).trans (src4 m ρ c)))

theorem dst7 (c : Dev nD) : W7 m ρ c (Proc.devRef .tc main_v6) = Cert.ReferenceIdeal.ReadP.val_main_v6 (F := Ideal) (m ((c.tc : Thread nD τ).loc main_arg1)) :=
  (W7_of_ne m ρ c main_v6 (by decide)).trans ((W6_of_ne m ρ c main_v6 (by decide)).trans ((by stretch_keeps hostOps1 : W5 m ρ c (Proc.devRef .tc main_v6) = W4 m ρ c (Proc.devRef .tc main_v6)).trans (dst4 m ρ c)))

theorem nrm7 (c : Dev nD) : W7 m ρ c (Proc.devRef .tc main_v29) = Cert.ReferenceIdeal.ReadP.val_main_v29 (F := Ideal) (m ((c.tc : Thread nD τ).loc main_arg1)) :=
  (W7_of_ne m ρ c main_v29 (by decide)).trans ((W6_of_ne m ρ c main_v29 (by decide)).trans ((by stretch_keeps hostOps1 : W5 m ρ c (Proc.devRef .tc main_v29) = W4 m ρ c (Proc.devRef .tc main_v29)).trans (nrm4 m ρ c)))

theorem arg5_7 (c : Dev nD) : W7 m ρ c (Proc.devRef .tc main_arg5) = (m ((c.tc : Thread nD τ).loc main_arg5)) :=
  (W7_of_ne m ρ c main_arg5 (by decide)).trans ((W6_of_ne m ρ c main_arg5 (by decide)).trans ((by stretch_keeps hostOps1 : W5 m ρ c (Proc.devRef .tc main_arg5) = W4 m ρ c (Proc.devRef .tc main_arg5)).trans (arg5_4 m ρ c)))

theorem arg4_6 (c : Dev nD) : W6 m ρ c (Proc.devRef .tc main_arg4) = (m ((c.tc : Thread nD τ).loc main_arg4)) :=
  (W6_of_ne m ρ c main_arg4 (by decide)).trans ((by stretch_keeps hostOps1 : W5 m ρ c (Proc.devRef .tc main_arg4) = W4 m ρ c (Proc.devRef .tc main_arg4)).trans (arg4_4 m ρ c))

/-! ## The second layer -/

/-- The second product. -/
theorem prod2 (c : Dev nD) : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W7_arr m ρ c 2).trans ((Cert.KernelIdeal.Region2.array_after (V6 m ρ) c).trans (by
    show Cert.Layers.proj64 (W6 m ρ c (Proc.devRef .tc main_v45)) (W6 m ρ c (Proc.devRef .tc main_arg4)) = _
    rw [act1 m ρ c, arg4_6 m ρ c]
    rfl))

/-- The second aggregation. -/
theorem agg2 (c : Dev nD) : W8 m ρ c (Proc.devRef .tc main_v59) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  aggregate2 (F := Ideal) (W7 m ρ c) _ _ _ _ _ (prod2 m ρ c) (src7 m ρ c) (dst7 m ρ c) (nrm7 m ρ c)

theorem row2 (c : Dev nD) : W8 m ρ c (Proc.devRef .tc main_v60) = Cert.ReferenceIdeal.ReadP.val_main_v62 (F := Ideal) (m ((c.tc : Thread nD τ).loc main_arg5)) :=
  biasrow2 (F := Ideal) (W7 m ρ c) _ (arg5_7 m ρ c)

/-- THE RESULT: at the last boundary the result buffer holds the reference's result stage of the six argument arrays. -/
theorem result (c : Dev nD) : W9 m ρ c (Proc.devRef .tc main_v61)
    = Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((Cert.KernelIdeal.Region3.array_after (V8 m ρ) c).trans (by
    show Cert.Layers.addRow (W8 m ρ c (Proc.devRef .tc main_v59)) (W8 m ρ c (Proc.devRef .tc main_v60)) = _
    rw [agg2 m ρ c, row2 m ρ c]
    rfl))

end Cert.KernelIdeal.Stages

end
-- ==== Proof.lean ====
/-
  A two-layer graph convolution, program against reference, over the extended reals.

  Both programs take node features x (100000 × 128), an edge list (2 × 1600000, any 32-bit integers), and two weight
  matrices with their biases. Both append a self loop to every node, weigh every edge by
  1 / sqrt(deg(source) · deg(destination)) with the degree counted at the destinations (0 where a degree is not
  positive), and compute twice: project the features by a weight matrix, gather the projected rows at the edges'
  sources, scale, scatter-add at the destinations, add the bias; the first layer ends with a maximum with zero.
  The program differs from the reference only in that the two projections and the two bias stages are tiled kernels
  over 25 blocks of 4000 rows (the projections with their operands passed through a narrower float format, which is
  the identity on the extended reals, and accumulated from zero), and that a bias is reshaped to a 1 × 64 row where
  the reference broadcasts it.

  The equality of results needs no hypothesis on the inputs: a block of a product is the product's block (the same
  sum of 128 resp. 64 terms at every entry), adding a row and taking a maximum are entry by entry, and everything
  else is the same operation applied to equal operands. Out-of-range edge indices are handled by the same gather and
  scatter-add on both sides, so they need no discussion either; the finiteness precondition is never opened.

  The three frames: the program's two instances by the generated frame certificates; the reference's by its run with
  the result dropped. The idealization rewrote nothing, so its soundness conjunct is trivial.
-/
import proofs.«134830_j51513837748917_1_alg».proof.Defs
import proofs.«134830_j51513837748917_1_alg».proof.Proof.Gen.Kernel
import proofs.«134830_j51513837748917_1_alg».proof.Proof.Gen.Kernel.Skeleton
import proofs.«134830_j51513837748917_1_alg».proof.Proof.Gen.Kernel.Launch
import proofs.«134830_j51513837748917_1_alg».proof.Proof.Gen.Kernel.Points
import proofs.«134830_j51513837748917_1_alg».proof.Proof.Gen.Kernel.Frame
import proofs.«134830_j51513837748917_1_alg».proof.Proof.Gen.KernelIdeal
import proofs.«134830_j51513837748917_1_alg».proof.Proof.Gen.KernelIdeal.Skeleton
import proofs.«134830_j51513837748917_1_alg».proof.Proof.Gen.KernelIdeal.Launch
import proofs.«134830_j51513837748917_1_alg».proof.Proof.Gen.KernelIdeal.Points
import proofs.«134830_j51513837748917_1_alg».proof.Proof.Gen.KernelIdeal.Frame
import proofs.«134830_j51513837748917_1_alg».proof.Proof.Gen.ReferenceIdeal
import proofs.«134830_j51513837748917_1_alg».proof.Proof.Gen.Pre_finite_inputs
import proofs.«134830_j51513837748917_1_alg».proof.Proof.RefRun
import proofs.«134830_j51513837748917_1_alg».proof.Proof.RefRead
import proofs.«134830_j51513837748917_1_alg».proof.Proof.KernelLaunch
import proofs.«134830_j51513837748917_1_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's result stage of the (agreeing) argument arrays in their result buffers:
    the program because its last segment boundary holds it there, the reference by its run. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.result m ρ c), (h c).2⟩)
      (Cert.KernelIdeal.Launched.run_boundary (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
